-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x64 : Shape := ⟨2, ![4096, 64]⟩
abbrev S64 : Shape := ⟨1, ![64]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x4096x4096 .f32) (main_arg1 : FVec F S4096x64 .f32) (main_arg2 : IVec S64 32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_c_2 : IVec S_ 32 := constantI S_ 32 0#32
  let main_v9 : IVec S64 32 := broadcastInDim S64 ![] bcast_S_S64 main_c_2
  let main_v10 : IVec S64 1 := cmpi .sge main_arg2 main_v9
  let main_c_3 : IVec S_ 32 := constantI S_ 32 4096#32
  let main_v11 : IVec S64 32 := broadcastInDim S64 ![] bcast_S_S64 main_c_3
  let main_v12 : IVec S64 1 := cmpi .slt main_arg2 main_v11
  let main_v13 : IVec S64 1 := andi main_v10 main_v12
  let main_c_4 : IVec S_ 1 := constantI S_ 1 1#1
  let main_v14 : IVec S_ 1 := (fun x v => Host.reduce IntOp.andi x v reducesTo_S64_S_d0 h_S_) main_v13 main_c_4
  let main_v15 : IVec S_ 1 := andi main_v8 main_v14
  main_v15
-- ==== Kernel.lean ====
abbrev S4x4096x4096 : Shape := ⟨3, ![4, 4096, 4096]⟩
abbrev S4096x64 : Shape := ⟨2, ![4096, 64]⟩
abbrev S64 : Shape := ⟨1, ![64]⟩
abbrev S16384x4096 : Shape := ⟨2, ![16384, 4096]⟩
abbrev S4096 : Shape := ⟨1, ![4096]⟩
abbrev S4096x1 : Shape := ⟨2, ![4096, 1]⟩
abbrev S1x64 : Shape := ⟨2, ![1, 64]⟩
abbrev S64x4096 : Shape := ⟨2, ![64, 4096]⟩
abbrev S_ : Shape := ⟨0, ![]⟩
abbrev S512x4096 : Shape := ⟨2, ![512, 4096]⟩
abbrev S512x64 : Shape := ⟨2, ![512, 64]⟩
abbrev S64x1024 : Shape := ⟨2, ![64, 1024]⟩
abbrev S512x1024 : Shape := ⟨2, ![512, 1024]⟩

abbrev nBuf : Space → Nat
  | .hbm => 17
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x64, .f32⟩
  | .hbm, ⟨2, _⟩ => ⟨S64, .i32⟩
  | .hbm, ⟨3, _⟩ => ⟨S16384x4096, .f32⟩
  | .hbm, ⟨4, _⟩ => ⟨S4096, .i32⟩
  | .hbm, ⟨5, _⟩ => ⟨S4096x1, .i32⟩
  | .hbm, ⟨6, _⟩ => ⟨S1x64, .i32⟩
  | .hbm, ⟨7, _⟩ => ⟨S4096x64, .i32⟩
  | .hbm, ⟨8, _⟩ => ⟨S4096x64, .i32⟩
  | .hbm, ⟨9, _⟩ => ⟨S4096x64, .i1⟩
  | .hbm, ⟨10, _⟩ => ⟨S4096x64, .f32⟩
  | .hbm, ⟨11, _⟩ => ⟨S64x4096, .f32⟩
  | .hbm, ⟨12, _⟩ => ⟨S_, .f32⟩
  | .hbm, ⟨13, _⟩ => ⟨S64x4096, .f32⟩
  | .hbm, ⟨14, _⟩ => ⟨S64x4096, .f32⟩
  | .hbm, ⟨15, _⟩ => ⟨S16384x4096, .f32⟩
  | .hbm, ⟨16, _⟩ => ⟨S4x4096x4096, .f32⟩
  | .local _ .vmem, ⟨0, _⟩ => ⟨S512x4096, .f32⟩
  | .local _ .vmem, ⟨1, _⟩ => ⟨S512x4096, .f32⟩
  | .local _ .vmem, ⟨2, _⟩ => ⟨S4096x64, .f32⟩
  | .local _ .vmem, ⟨3, _⟩ => ⟨S64x4096, .f32⟩
  | .local _ .vmem, ⟨4, _⟩ => ⟨S512x4096, .f32⟩
  | .local _ .vmem, ⟨5, _⟩ => ⟨S512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x4096_S16384x4096 : S4x4096x4096.ShapeCasts S16384x4096
  bcast_S4096_S4096x1_0 : S4096.BroadcastsInDim S4096x1 (![0] : Fin 1 → Fin S4096x1.rank)
  bcast_S64_S1x64_1 : S64.BroadcastsInDim S1x64 (![1] : Fin 1 → Fin S1x64.rank)
  bcast_S4096x1_S4096x64_0_1 : S4096x1.BroadcastsInDim S4096x64 (![0, 1] : Fin 2 → Fin S4096x64.rank)
  bcast_S1x64_S4096x64_0_1 : S1x64.BroadcastsInDim S4096x64 (![0, 1] : Fin 2 → Fin S4096x64.rank)
  transposes_S4096x64_S64x4096_1_0 : S4096x64.Transposes [1, 0] S64x4096
  bcast_S_S64x4096 : S_.BroadcastsInDim S64x4096 (![] : Fin 0 → Fin S64x4096.rank)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  slices_S64x4096_o0_0_S64x1024 : S64x4096.Slices ![0, 0] S64x1024
  inb_S512x4096_S512x1024_0_0 : ∀ a, (![0, 0] : Fin 2 → Nat) a + S512x1024.size a ≤ S512x4096.size a
  h_S512x1024 : 0 < S512x1024.numel
  slices_S64x4096_o0_1024_S64x1024 : S64x4096.Slices ![0, 1024] S64x1024
  inb_S512x4096_S512x1024_0_1024 : ∀ a, (![0, 1024] : Fin 2 → Nat) a + S512x1024.size a ≤ S512x4096.size a
  slices_S64x4096_o0_2048_S64x1024 : S64x4096.Slices ![0, 2048] S64x1024
  inb_S512x4096_S512x1024_0_2048 : ∀ a, (![0, 2048] : Fin 2 → Nat) a + S512x1024.size a ≤ S512x4096.size a
  slices_S64x4096_o0_3072_S64x1024 : S64x4096.Slices ![0, 3072] S64x1024
  inb_S512x4096_S512x1024_0_3072 : ∀ a, (![0, 3072] : Fin 2 → Nat) a + S512x1024.size a ≤ S512x4096.size a
  shapeCasts_S16384x4096_S4x4096x4096 : S16384x4096.ShapeCasts S4x4096x4096
  dot_S512x4096_S4096x64_S512x64_1_0_0_1_n_n_wf : DotDims.WF S512x4096 S4096x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .f32 = 32 ∨ (Rect.block (s := S4096x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S16384x4096.size a
  hwx0_3 : ∀ i : grid0.Coords, EltTy.bits .f32 = 32 ∨ (Rect.block (s := S16384x4096) S512x4096.size (cc0_transform_3 i) (hinb0_3 i)).WholeWords (EltTy.packing .f32)

variable [Facts₀]

def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x64 : Shape := ⟨2, ![4096, 64]⟩
abbrev S64 : Shape := ⟨1, ![64]⟩
abbrev S_ : Shape := ⟨0, ![]⟩
abbrev S64x1 : Shape := ⟨2, ![64, 1]⟩
abbrev S1 : Shape := ⟨1, ![1]⟩
abbrev S1x1 : Shape := ⟨2, ![1, 1]⟩
abbrev S4x4096x64 : Shape := ⟨3, ![4, 4096, 64]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x64, .f32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i1⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S64, .i32⟩
  | .hbm, ⟨10, _⟩ => ⟨S64x1, .i32⟩
  | .hbm, ⟨11, _⟩ => ⟨S1, .i32⟩
  | .hbm, ⟨12, _⟩ => ⟨S_, .i32⟩
  | .hbm, ⟨13, _⟩ => ⟨S64x1, .i32⟩
  | .hbm, ⟨14, _⟩ => ⟨S64x1, .i1⟩
  | .hbm, ⟨15, _⟩ => ⟨S1x1, .i32⟩
  | .hbm, ⟨16, _⟩ => ⟨S64x1, .i32⟩
  | .hbm, ⟨17, _⟩ => ⟨S64x1, .i1⟩
  | .hbm, ⟨18, _⟩ => ⟨S64x1, .i1⟩
  | .hbm, ⟨19, _⟩ => ⟨S_, .i1⟩
  | .hbm, ⟨20, _⟩ => ⟨S64, .i1⟩
  | .hbm, ⟨21, _⟩ => ⟨S4x4096x64, .f32⟩
  | .hbm, ⟨22, _⟩ => ⟨S4x4096x64, .i1⟩
  | .hbm, ⟨23, _⟩ => ⟨S_, .f32⟩
  | .hbm, ⟨24, _⟩ => ⟨S4x4096x64, .f32⟩
  | .hbm, ⟨25, _⟩ => ⟨S4x4096x64, .f32⟩
  | .hbm, ⟨26, _⟩ => ⟨S4x4096x4096, .f32⟩
  | .hbm, ⟨27, _⟩ => ⟨S_, .f32⟩
  | .hbm, ⟨28, _⟩ => ⟨S4x4096x4096, .f32⟩
  | .hbm, ⟨29, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_v3 : Ref sig .tc := ⟨.hbm, 29, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  h_S_ : 0 < S_.numel
  bcast_S64_S4x4096x64_2 : S64.BroadcastsInDim S4x4096x64 (![2] : Fin 1 → Fin S4x4096x64.rank)
  bcast_S_S4x4096x64 : S_.BroadcastsInDim S4x4096x64 (![] : Fin 0 → Fin S4x4096x64.rank)
  bcast_S_S4x4096x4096 : S_.BroadcastsInDim S4x4096x4096 (![] : Fin 0 → Fin S4x4096x4096.rank)
  gather_S4x4096x4096_S64x1_S4x4096x64_01_2_n_n_2_1_440961_wf : GatherDims.WF S4x4096x4096 S64x1 S4x4096x64 [0, 1] [2] [] [2] [] 1 ![4, 4096, 1]
  dot_S4x4096x64_S4096x64_S4x4096x4096_2_1_01_0_n_n_wf : DotDims.WF S4x4096x64 S4096x64 S4x4096x4096 [2] [1] [0, 1] [0] [] []

variable [Facts₀]

def gather_S4x4096x4096_S64x1_S4x4096x64_01_2_n_n_2_1_440961 : GatherDims S4x4096x4096 S64x1 S4x4096x64 where
  offsetDims := [0, 1]
  collapsedSliceDims := [2]
  operandBatchingDims := []
  startIndicesBatchingDims := []
  startIndexMap := [2]
  indexVectorDim := 1
  sliceSizes := ![4, 4096, 1]
  wf := gather_S4x4096x4096_S64x1_S4x4096x64_01_2_n_n_2_1_440961_wf
def dot_S4x4096x64_S4096x64_S4x4096x4096_2_1_01_0_n_n : DotDims S4x4096x64 S4096x64 S4x4096x4096 where
  lhsContracting := [2]
  rhsContracting := [1]
  lhsNonContracting := [0, 1]
  rhsNonContracting := [0]
  lhsBatch := []
  rhsBatch := []
  wf := dot_S4x4096x64_S4096x64_S4x4096x4096_2_1_01_0_n_n_wf

class Facts : Prop extends Facts₀ where

variable [Facts]
-- ==== Proof.Spec.lean ====
/-
  The function both programs compute, and the domain of the index vector.

  The inputs are an array `x : [4, 4096, 4096]`, a weight `w : [4096, 64]` and a vector `idx : [64]` of column
  numbers of the last axis of `x`. Both programs pick the 64 columns `idx r` out of every row of `x` and project
  the picked row onto the rows of `w`:

      G x w idx (b, s, o) = ∑ r < 64, x (b, s, idx r) · w (o, r)

  over the extended reals. The domain is `InRange`: every entry of `idx`, read as a natural number, is a column of the
  axis, `idx r < 4096`. The column is written reduced modulo 4096 so that `G` is a total function; on the domain the
  reduction is the identity (`col_val`).
-/
import Idealize.ShloMosaic.PureOps.Ideal
import Idealize.ShloMosaic.Lib.ValueIdx

noncomputable section

namespace Cert.Spec

open Idealize.ShloMosaic Idealize.ShloMosaic.ValueIdx

/-- The array the columns are picked from, and the result: batch × row × column. -/
abbrev SX : Shape := ⟨3, ![4, 4096, 4096]⟩
/-- The projection weight: output column × picked column. -/
abbrev SW : Shape := ⟨2, ![4096, 64]⟩
/-- The vector of picked column numbers. -/
abbrev SI : Shape := ⟨1, ![64]⟩

/-- Every entry of the index vector, read as a natural number, is a column of the 4096-wide last axis. -/
def InRange (idx : IVec SI 32) : Prop := ∀ r : Fin 64, (idx (ix1 r)).toNat < 4096

/-- The column entry `r` of the index vector picks, reduced modulo the axis' extent so that it is total. -/
def col (idx : IVec SI 32) (r : Fin 64) : Fin 4096 := ⟨(idx (ix1 r)).toNat % 4096, Nat.mod_lt _ (by norm_num)⟩

/-- On the domain the reduction does nothing: the picked column is the entry itself. -/
theorem col_val {idx : IVec SI 32} (h : InRange idx) (r : Fin 64) : (col idx r).val = (idx (ix1 r)).toNat :=
  Nat.mod_eq_of_lt (h r)

/-- The common value: at `(b, s, o)` the sum over the 64 picked columns of `x (b, s, idx r) · w (o, r)`. -/
def G (x : FVec Ideal SX .f32) (w : FVec Ideal SW .f32) (idx : IVec SI 32) : FVec Ideal SX .f32 :=
  fun i => ∑ r : Fin 64, x (ix3 (n0 := 4) (n1 := 4096) (n2 := 4096) (i 0) (i 1) (col idx r)) * w (ix2 (n0 := 4096) (n1 := 64) (i 2) r)

/-- `G` read at coordinates. -/
theorem G_apply (x : FVec Ideal SX .f32) (w : FVec Ideal SW .f32) (idx : IVec SI 32) (b : Fin 4) (s o : Fin 4096) :
    G x w idx (ix3 b s o) = ∑ r : Fin 64, x (ix3 b s (col idx r)) * w (ix2 o r) := rfl

end Cert.Spec

end
-- ==== Proof.PreRange.lean ====
/-
  The printed precondition gives the index range.

  The precondition of the claim is printed as a function of the three inputs that returns one bit. Its last
  conjunct is the bit `all r, (0 ≤ idx r) and (idx r < 4096)`, both comparisons of signed 32-bit words. This
  module reads that conjunct back: when the printed function returns 1, every entry of the index vector, read as a
  natural number, is below 4096, which is the domain `Cert.Spec.InRange` of the common value.

  The reading has three steps. The outer conjunction is 1, so its last operand is 1. That operand is a fold by
  `and` over all 64 positions from 1, so the bit at every position is 1. The bit at position `r` is the
  conjunction of the two comparisons at `r`, so both hold; a signed word between 0 and 4096 has its sign bit
  clear, and so its unsigned value is its signed value.
-/
import proofs.«407512_j6390911336859_3_alg».proof.Pre_finite_inputs
import proofs.«407512_j6390911336859_3_alg».proof.Proof.Gen.Pre_finite_inputs
import proofs.«407512_j6390911336859_3_alg».proof.Proof.Spec
import Idealize.ShloMosaic.Lib.ReduceAll
import Idealize.ShloMosaic.Lib.StableHlo.Predicate

namespace Cert.PreRange

open Idealize.ShloMosaic Idealize.ShloMosaic.ValueIdx

/-- The shape of a scalar has exactly one index. -/
instance : Subsingleton Cert.Pre_finite_inputs.S_.Idx := ⟨fun a b => funext fun d => d.elim0⟩

/-- A 32-bit word that, read as a signed number, is at least 0 and below 4096 is below 4096 read as a natural
    number: its signed value is non-negative, so the sign bit is clear and the two readings agree. -/
theorem toNat_lt_of_signed_range (a : BitVec 32) (h0 : IntOp.cmpi .sge a 0#32 = 1#1)
    (h1 : IntOp.cmpi .slt a 4096#32 = 1#1) : a.toNat < 4096 := by
  rw [IntOp.cmpi_sge] at h0
  rw [IntOp.cmpi_slt] at h1
  have e0 : (0#32 : BitVec 32).toInt = 0 := by decide
  have e1 : (4096#32 : BitVec 32).toInt = 4096 := by decide
  rw [e0] at h0
  rw [e1] at h1
  rw [BitVec.toInt_eq_toNat_cond] at h0 h1
  have hlt := a.isLt
  split at h0 <;> omega

/-- When the printed precondition returns 1, every entry of the index vector is a column of the 4096-wide axis. -/
theorem inRange_of_pre {F : FTy → Type} [FloatOps F] (x : FVec F Cert.Pre_finite_inputs.S4x4096x4096 .f32)
    (w : FVec F Cert.Pre_finite_inputs.S4096x64 .f32) (idx : IVec Cert.Pre_finite_inputs.S64 32)
    (h : Cert.Pre_finite_inputs.fn (F := F) x w idx = fun _ => 1#1) : Cert.Spec.InRange idx := by
  intro r
  have h' := congrFun h ValueIdx.ix0
  dsimp only [Cert.Pre_finite_inputs.fn] at h'
  -- the outer conjunction is 1: so is its last operand, the fold over the 64 positions
  have hall := (IntOp.andi_eq_one.1 h').2
  -- the fold by `and` from 1 is 1: the bit at position `r` is 1
  have hr := Host.reduce_andi_all _ _ _ _ _ hall (ix1 r)
  -- that bit is the conjunction of the two comparisons at `r`
  obtain ⟨hge, hlt⟩ := IntOp.andi_eq_one.1 hr
  exact toNat_lt_of_signed_range (idx (ix1 r)) hge hlt

end Cert.PreRange
-- ==== Proof.LibMatmulPlain.lean ====
/-
  A plain matrix product, read at an index.

  For dimension numbers that contract the left operand's axis 1 with the right operand's axis 0, keep the left operand's
  axis 0 and the right operand's axis 1, and have no batch axis, the product of `l : [M, K]` and `r : [K, N]` into a zero
  accumulator is, at `(p, q)`, the sum over `k < K` of `l (p, k) · r (k, q)` on the extended reals. The contraction
  index set has one axis of extent `K`; the sum over it is re-indexed by its one coordinate.
-/
import Idealize.ShloMosaic.PureOps.Ideal.Laws
import Idealize.ShloMosaic.Lib.ValueIdx

noncomputable section

namespace Cert.Lib.MatmulPlain

open Idealize.ShloMosaic Idealize.ShloMosaic.ValueIdx

variable {M K N : Nat} (d : DotDims ⟨2, ![M, K]⟩ ⟨2, ![K, N]⟩ ⟨2, ![M, N]⟩)

/-- The contraction index set has one axis. -/
theorem contr_rank (hlc : d.lhsContracting = [1]) : d.contr.rank = 1 := by
  rw [d.rank_contr, hlc]; rfl

/-- Its extent is the contracted extent `K`. -/
theorem contr_size (hlc : d.lhsContracting = [1]) :
    d.contr.size ⟨0, by rw [contr_rank d hlc]; exact Nat.one_pos⟩ = K := by
  have key : ∀ (L : List (Fin 2)) (h : L = [1]) (hp : 0 < (Shape.ofList (L.map (⟨2, ![M, K]⟩ : Shape).size)).rank),
      (Shape.ofList (L.map (⟨2, ![M, K]⟩ : Shape).size)).size ⟨0, hp⟩ = K := by
    intro L h hp; subst h; rfl
  exact key _ hlc _

/-- The left operand's row coordinate is the result's row. -/
theorem lhs_0 (hln : d.lhsNonContracting = [0]) (hlb : d.lhsBatch = []) (j : (⟨2, ![M, N]⟩ : Shape).Idx) (k : d.contr.Idx) :
    (d.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln])

/-- The left operand's column coordinate is the contraction position. -/
theorem lhs_1 (hlc : d.lhsContracting = [1]) (j : (⟨2, ![M, N]⟩ : Shape).Idx) (k : d.contr.Idx) :
    (d.lhsIdx j k 1).val = (k ⟨0, by rw [contr_rank d hlc]; exact Nat.one_pos⟩).val :=
  d.lhsIdx_val_of_single hlc j k

/-- The right operand's row coordinate is the contraction position. -/
theorem rhs_0 (hlc : d.lhsContracting = [1]) (hrc : d.rhsContracting = [0]) (j : (⟨2, ![M, N]⟩ : Shape).Idx) (k : d.contr.Idx) :
    (d.rhsIdx j k 0).val = (k ⟨0, by rw [contr_rank d hlc]; exact Nat.one_pos⟩).val :=
  d.rhsIdx_val_of_single hrc j k

/-- The right operand's column coordinate is the result's column. -/
theorem rhs_1 (hrn : d.rhsNonContracting = [1]) (hln : d.lhsNonContracting = [0]) (hlb : d.lhsBatch = []) (hrb : d.rhsBatch = [])
    (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln, hrn])

/-- THE PRODUCT AT `(p, q)`: the sum over the contracted coordinate of the operands' products. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q)
      = ∑ k : Fin K, l (ix2 p k) * r (ix2 k q) := by
  rw [Ideal.matmul_constant_zero_apply]
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_0 d hln hlb _ _
    | ⟨1, _⟩ => exact (lhs_1 d hlc _ _).trans hk
  have er : d.rhsIdx (ix2 p q) ((contrEquiv1 d K (contr_rank d hlc) (contr_size d hlc)).symm k) = ix2 k q := by
    funext a; apply Fin.ext
    match a with
    | ⟨0, _⟩ => exact (rhs_0 d hlc hrc _ _).trans hk
    | ⟨1, _⟩ => exact rhs_1 d hrn hln hlb hrb _ _
  rw [el, er]

end Cert.Lib.MatmulPlain

end
-- ==== Proof.KernelBlock.lean ====
/-
  What the kernel body leaves in its output block, as one function of its three input blocks.

  The body loads a block of rows `x0 : [512, 4096]`, the selection table `x1 : [4096, 64]` and the transposed weight
  `x2 : [64, 4096]`. It forms the picked columns `lx = x0 · x1 : [512, 64]` by a matrix product and writes the
  projection `lx · x2` in four bands of 1024 output columns, each band the product of `lx` with the matching band of
  columns of `x2`. Read at `(p, o)` every band gives the same expression,

      block x0 x1 x2 (p, o) = ∑ r < 64, (∑ k < 4096, x0 (p, k) · x1 (k, r)) · x2 (r, o),

  and the four bands tile the block, so the block after the body is that function.
-/
import proofs.«407512_j6390911336859_3_alg».proof.Proof.Gen.KernelIdeal.Frame
import proofs.«407512_j6390911336859_3_alg».proof.Proof.LibMatmulPlain
import Idealize.ShloMosaic.Lib.Pipeline.Value

set_option maxRecDepth 16384

noncomputable section

namespace Cert.KernelIdeal.Block

open Cert.KernelIdeal Cert.KernelIdeal.Gen Idealize.ShloMosaic Idealize.ShloMosaic.ValueIdx

/-- The picked columns of the block of rows: the product with the selection table, at `(p, r)`. -/
theorem picked_apply (x0 : Vec Ideal S512x4096 .f32) (x1 : Vec Ideal S4096x64 .f32) (p : Fin 512) (r : Fin 64) :
    k0_pay1 x0 x1 (ix2 p r) = ∑ k : Fin 4096, x0 (ix2 p k) * x1 (ix2 k r) := by
  unfold k0_pay1
  simp only [shapeCast_self]
  exact Cert.Lib.MatmulPlain.matmul_zero_apply dot_S512x4096_S4096x64_S512x64_1_0_0_1_n_n rfl rfl rfl rfl rfl rfl none x0 x1 p r

/-- A band of 1024 columns of the transposed weight starting at column `c`, at `(r, q)`: the weight at `(r, c + q)`. -/
theorem band_apply (c : Nat) (hc : c + 1024 ≤ 4096) (x2 : FVec Ideal S64x4096 .f32) (h : S64x4096.Slices ![0, c] S64x1024)
    (r : Fin 64) (q : Fin 1024) :
    extractStridedSlice S64x1024 ![0, c] x2 h (ix2 r q) = x2 (ix2 r ⟨c + q.val, by omega⟩) :=
  extractStridedSlice_apply ![0, c] x2 h (ix2 r q) (ix2 r ⟨c + q.val, by omega⟩) (fun a => by
    match a with
    | ⟨0, _⟩ => show r.val = 0 + r.val; omega
    | ⟨1, _⟩ => rfl)

/-- One band of the projection at `(p, q)`: the picked columns of row `p` against column `c + q` of the weight. -/
theorem proj_band_apply (c : Nat) (hc : c + 1024 ≤ 4096) (lx : FVec Ideal S512x64 .f32) (x2 : FVec Ideal S64x4096 .f32)
    (h : S64x4096.Slices ![0, c] S64x1024) (p : Fin 512) (q : Fin 1024) :
    matmul dot_S512x64_S64x1024_S512x1024_1_0_0_1_n_n none lx (extractStridedSlice S64x1024 ![0, c] x2 h)
        (constant S512x1024 .f32 0x00000000#32) (ix2 p q)
      = ∑ r : Fin 64, lx (ix2 p r) * x2 (ix2 r ⟨c + q.val, by omega⟩) := by
  rw [show matmul dot_S512x64_S64x1024_S512x1024_1_0_0_1_n_n none lx (extractStridedSlice S64x1024 ![0, c] x2 h)
        (constant S512x1024 .f32 0x00000000#32) (ix2 p q)
      = ∑ r : Fin 64, lx (ix2 p r) * (extractStridedSlice S64x1024 ![0, c] x2 h) (ix2 r q) from
    Cert.Lib.MatmulPlain.matmul_zero_apply dot_S512x64_S64x1024_S512x1024_1_0_0_1_n_n rfl rfl rfl rfl rfl rfl none lx _ p q]
  exact Finset.sum_congr rfl fun r _ => by rw [band_apply c hc x2 h r q]

/-- The block after the body as one function of the three input blocks. -/
def block (x0 : Vec Ideal S512x4096 .f32) (x1 : Vec Ideal S4096x64 .f32) (x2 : Vec Ideal S64x4096 .f32) : Vec Ideal S512x4096 .f32 :=
  fun y => ∑ r : Fin 64, (∑ k : Fin 4096, x0 (ix2 (n0 := 512) (n1 := 4096) (y 0) k) * x1 (ix2 k r)) * x2 (ix2 (n0 := 64) (n1 := 4096) r (y 1))

theorem block_apply (x0 : Vec Ideal S512x4096 .f32) (x1 : Vec Ideal S4096x64 .f32) (x2 : Vec Ideal S64x4096 .f32) (p : Fin 512) (o : Fin 4096) :
    block x0 x1 x2 (ix2 p o) = ∑ r : Fin 64, (∑ k : Fin 4096, x0 (ix2 p k) * x1 (ix2 k r)) * x2 (ix2 r o) := rfl

/-- Each band's payload, at `(p, q)`, is `block` at `(p, c + q)`. -/
theorem band_is_block (c : Nat) (hc : c + 1024 ≤ 4096) (x0 : Vec Ideal S512x4096 .f32) (x1 : Vec Ideal S4096x64 .f32) (x2 : Vec Ideal S64x4096 .f32)
    (h : S64x4096.Slices ![0, c] S64x1024) (p : Fin 512) (q : Fin 1024) :
    matmul dot_S512x64_S64x1024_S512x1024_1_0_0_1_n_n none (k0_pay1 x0 x1) (extractStridedSlice S64x1024 ![0, c] (k0_pay2 x2) h)
        (constant S512x1024 .f32 0x00000000#32) (ix2 p q)
      = block x0 x1 x2 (ix2 p ⟨c + q.val, by omega⟩) := by
  rw [proj_band_apply c hc, block_apply]
  refine Finset.sum_congr rfl fun r _ => ?_
  rw [picked_apply]
  unfold k0_pay2
  rw [shapeCast_self]

theorem zero_offsets : (![0, 0] : Fin 2 → Nat) = fun _ => 0 := funext fun a => by fin_cases a <;> rfl

/-- A band's rectangle, starting at column `c`, places `(p, q)` at `(p, c + q)` of the block. -/
theorem band_emb (c : Nat) (hc : c + 1024 ≤ 4096) (inb : ∀ a, (![0, c] : Fin 2 → Nat) a + S512x1024.size a ≤ S512x4096.size a)
    (p : Fin 512) (q : Fin 1024) :
    (Rect.unit (s := S512x4096) ![0, c] S512x1024.size inb).emb (ix2 p q) = ix2 p ⟨c + q.val, by omega⟩ := by
  funext a; apply Fin.ext
  match a with
  | ⟨0, _⟩ => show 0 + 1 * p.val = p.val; omega
  | ⟨1, _⟩ => show c + 1 * q.val = c + q.val; omega

/-- THE BLOCK AFTER THE BODY is `block` of the three input blocks: each of the four stores writes `block` through its
    band's rectangle, and the bands cover the block. -/
theorem out_eq_block (x0 : Vec Ideal S512x4096 .f32) (x1 : Vec Ideal S4096x64 .f32) (x2 : Vec Ideal S64x4096 .f32) :
    out0_3 x0 x1 x2 = block x0 x1 x2 := by
  funext y
  unfold out0_3
  simp only [View.ld_unit_zero (S := S512x4096) zero_offsets, View.ld_unit_zero (S := S4096x64) zero_offsets,
    View.ld_unit_zero (S := S64x4096) zero_offsets]
  refine View.canon_apply_of_pieces (block x0 x1 x2) _ ?_ y (cover0_3 _ _ _ _ y)
  intro pc hpc x
  simp only [List.mem_cons, List.mem_nil_iff, or_false] at hpc
  rcases hpc with rfl | rfl | rfl | rfl
  · obtain ⟨p, q, rfl⟩ : ∃ (p : Fin 512) (q : Fin 1024), x = ix2 p q := ⟨x 0, x 1, eq_ix2 x⟩
    show k0_pay6 x0 x1 x2 (ix2 p q) = block x0 x1 x2 (r0_6.emb (ix2 p q))
    rw [band_emb 3072 (by norm_num)]
    exact band_is_block 3072 (by norm_num) x0 x1 x2 _ p q
  · obtain ⟨p, q, rfl⟩ : ∃ (p : Fin 512) (q : Fin 1024), x = ix2 p q := ⟨x 0, x 1, eq_ix2 x⟩
    show k0_pay5 x0 x1 x2 (ix2 p q) = block x0 x1 x2 (r0_5.emb (ix2 p q))
    rw [band_emb 2048 (by norm_num)]
    exact band_is_block 2048 (by norm_num) x0 x1 x2 _ p q
  · obtain ⟨p, q, rfl⟩ : ∃ (p : Fin 512) (q : Fin 1024), x = ix2 p q := ⟨x 0, x 1, eq_ix2 x⟩
    show k0_pay4 x0 x1 x2 (ix2 p q) = block x0 x1 x2 (r0_4.emb (ix2 p q))
    rw [band_emb 1024 (by norm_num)]
    exact band_is_block 1024 (by norm_num) x0 x1 x2 _ p q
  · obtain ⟨p, q, rfl⟩ : ∃ (p : Fin 512) (q : Fin 1024), x = ix2 p q := ⟨x 0, x 1, eq_ix2 x⟩
    show k0_pay3 x0 x1 x2 (ix2 p q) = block x0 x1 x2 (r0_3.emb (ix2 p q))
    rw [band_emb 0 (by norm_num)]
    exact band_is_block 0 (by norm_num) x0 x1 x2 _ p q

end Cert.KernelIdeal.Block

end
-- ==== Proof.KernelWhole.lean ====
/-
  The kernel's result array as one function of the arrays its region finds.

  The region works on the rows `X : [16384, 4096]` (the input with its two leading axes merged), the selection table
  `T : [4096, 64]` and the transposed weight `Wt : [64, 4096]`. Grid point `t` loads rows `512 t … 512 t + 511` of `X` and
  the whole of `T` and `Wt`, and writes back rows `512 t … 512 t + 511` of the result. Every point writes the same
  whole-array function read through its own block,

      whole X T Wt (n, o) = ∑ r < 64, (∑ k < 4096, X (n, k) · T (k, r)) · Wt (r, o),

  and the 32 blocks tile the 16384 rows, so the array after the region is `whole X T Wt`. The program then splits the
  row axis back into batch × row.
-/
import proofs.«407512_j6390911336859_3_alg».proof.Proof.Gen.KernelIdeal.Frame
import proofs.«407512_j6390911336859_3_alg».proof.Proof.KernelBlock
import Idealize.ShloMosaic.Lib.Pipeline.Value
import Idealize.ShloMosaic.Lib.StableHlo.Run

set_option maxRecDepth 16384

noncomputable section

namespace Cert.KernelIdeal.Whole

open Cert.KernelIdeal Cert.KernelIdeal.Gen Idealize.ShloMosaic Idealize.ShloMosaic.ValueIdx Idealize.ShloMosaic.TcCoe
open Idealize.SL.Sem
open Idealize.ShloMosaic.Pipeline (Dat)

/-- The result array as a function of the three arrays the region finds. -/
def whole (X : Vec Ideal S16384x4096 .f32) (T : Vec Ideal S4096x64 .f32) (Wt : Vec Ideal S64x4096 .f32) : Vec Ideal S16384x4096 .f32 :=
  fun i => ∑ r : Fin 64, (∑ k : Fin 4096, X (ix2 (n0 := 16384) (n1 := 4096) (i 0) k) * T (ix2 k r)) * Wt (ix2 (n0 := 64) (n1 := 4096) r (i 1))

theorem whole_apply (X : Vec Ideal S16384x4096 .f32) (T : Vec Ideal S4096x64 .f32) (Wt : Vec Ideal S64x4096 .f32) (n : Fin 16384) (o : Fin 4096) :
    whole X T Wt (ix2 n o) = ∑ r : Fin 64, (∑ k : Fin 4096, X (ix2 n k) * T (ix2 k r)) * Wt (ix2 r o) := rfl

/-- A block's function at `y` is the whole-array function at `i` when the block of rows holds row `i 0` of `X` at its row
    `y 0`, the table block is the table, and the weight block holds column `i 1` at its column `y 1`. -/
theorem block_eq_whole_at (X : Vec Ideal S16384x4096 .f32) (T : Vec Ideal S4096x64 .f32) (Wt : Vec Ideal S64x4096 .f32)
    (x0 : Vec Ideal S512x4096 .f32) (x1 : Vec Ideal S4096x64 .f32) (x2 : Vec Ideal S64x4096 .f32)
    (i : S16384x4096.Idx) (y : S512x4096.Idx)
    (h0 : ∀ k : Fin 4096, x0 (ix2 (n0 := 512) (n1 := 4096) (y 0) k) = X (ix2 (n0 := 16384) (n1 := 4096) (i 0) k))
    (h1 : ∀ (k : Fin 4096) (r : Fin 64), x1 (ix2 k r) = T (ix2 k r))
    (h2 : ∀ r : Fin 64, x2 (ix2 (n0 := 64) (n1 := 4096) r (y 1)) = Wt (ix2 (n0 := 64) (n1 := 4096) r (i 1))) :
    Block.block x0 x1 x2 y = whole X T Wt i := by
  unfold Block.block whole
  refine Finset.sum_congr rfl fun r _ => ?_
  rw [h2 r]
  congr 1
  exact Finset.sum_congr rfl fun k _ => by rw [h0 k, h1 k r]

variable (m : (ℓ : Loc nD τ sig) → Buf (Elt Ideal) ℓ) (ρ : Dev nD → PrngReg)

/-- The three arrays as the region finds them, at their literal types. -/
abbrev rowsArr (c : Dev nD) : Vec Ideal S16384x4096 .f32 := V m c main_v0
abbrev tableArr (c : Dev nD) : Vec Ideal S4096x64 .f32 := V m c main_v7
abbrev weightArr (c : Dev nD) : Vec Ideal S64x4096 .f32 := V m c main_v10

/-- The index maps over the grid: the rows' block and the result's block are block `t` of the row axis and the whole of
    the column axis; the table and the weight are fetched whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of `whole` of the arrays the region finds. -/
theorem flushed_eq (c : Dev nD) (t : Fin cfg0.N) :
    (dats m 0 c).flushed 3 t = ((cfg0.win 3).blk t).view.read (Elt Ideal) (whole (rowsArr m c) (tableArr m c) (weightArr m c)) := by
  show (cfg0.win 3).cut (grid0.coords t) ((dats m 0 c).after 3 t) = _
  rw [after0_3, Block.out_eq_block]
  obtain ⟨e00, e01, e10, e11, e20, e21, e30, e31⟩ := idx_facts t
  funext j
  show Block.block (iblk m c 0 t) (iblk m c 1 t) (iblk m c 2 t) j
    = whole (rowsArr m c) (tableArr m c) (weightArr m c) (((cfg0.win 3).blk t).view.emb j)
  refine block_eq_whole_at (rowsArr m c) (tableArr m c) (weightArr m c) (iblk m c 0 t) (iblk m c 1 t) (iblk m c 2 t)
    (((cfg0.win 3).blk t).view.emb j) j (fun k => ?_) (fun k r => ?_) (fun r => ?_)
  · show V m c main_v0 (((cfg0.win 0).blk t).view.emb (ix2 (n0 := 512) (n1 := 4096) (j 0) k)) = V m c main_v0 _
    refine congrArg (V m c main_v0) ?_
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 4096 + 1 * k.val = k.val; omega
  · show V m c main_v7 (((cfg0.win 1).blk t).view.emb (ix2 k r)) = V m c main_v7 _
    refine congrArg (V m c main_v7) ?_
    funext a; apply Fin.ext
    match a with
    | ⟨0, _⟩ => show win0_1.index t (0 : Fin 2) * 4096 + 1 * k.val = k.val; omega
    | ⟨1, _⟩ => show win0_1.index t (1 : Fin 2) * 64 + 1 * r.val = r.val; omega
  · show V m c main_v10 (((cfg0.win 2).blk t).view.emb (ix2 (n0 := 64) (n1 := 4096) r (j 1))) = V m c main_v10 _
    refine congrArg (V m c main_v10) ?_
    funext a; apply Fin.ext
    match a with
    | ⟨0, _⟩ => show win0_2.index t (0 : Fin 2) * 64 + 1 * r.val = r.val; omega
    | ⟨1, _⟩ => show win0_2.index t (1 : Fin 2) * 4096 + 1 * (j 1).val = win0_3.index t (1 : Fin 2) * 4096 + 1 * (j 1).val; omega

/-- An index of the result array is in point `t`'s block iff each coordinate is in the block's range on its axis. -/
theorem mem_blk (t : Fin cfg0.N) (i : S16384x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v11).slice (win0_3.rect t)).set ↔ _
  rw [View.set_slice_whole, Rect.mem_set_unit]
  exact Iff.rfl

/-- Row `n` of the result is in the block of point `n / 512`: the blocks cover the array. -/
theorem cover (i : S16384x4096.Idx) : ∃ t : Fin cfg0.N, (cfg0.win 3).flush t = true ∧ i ∈ ((cfg0.win 3).blk t).view.set := by
  have hi0 : (i 0).val < 16384 := (i 0).isLt
  have hi1 : (i 1).val < 4096 := (i 1).isLt
  have ht : (i 0).val / 512 < cfg0.N := by show _ < grid0.N; rw [N_0]; omega
  obtain ⟨-, -, -, -, -, -, e30, e31⟩ := idx_facts ⟨(i 0).val / 512, ht⟩
  refine ⟨⟨(i 0).val / 512, ht⟩, flush0_3 _, ?_⟩
  rw [mem_blk]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    have e : win0_3.index ⟨(i 0).val / 512, ht⟩ (0 : Fin 2) = (i 0).val / 512 := e30
    omega
  | ⟨1, _⟩ =>
    show win0_3.index ⟨(i 0).val / 512, ht⟩ (1 : Fin 2) * 4096 ≤ (i 1).val
      ∧ (i 1).val < win0_3.index ⟨(i 0).val / 512, ht⟩ (1 : Fin 2) * 4096 + 4096
    omega

/-- THE ARRAY AFTER THE REGION is `whole` of the arrays the region finds. -/
theorem final (c : Dev nD) : (dats m 0 c).arrAt 3 cfg0.N = whole (rowsArr m c) (tableArr m c) (weightArr m c) :=
  (dats m 0 c).arrAt_eq_of_cover 3 _ (fun t _ => flushed_eq m c t) (cover)

/-- The program's result: the row axis of the region's array split back into batch × row. -/
theorem tail_eq (c : Dev nD) :
    Pipeline.afterTail₀ cfgs (dats m) 0 (V0 m) [hostOps1] c main_v12
      = shapeCast S4x4096x4096 (whole (rowsArr m c) (tableArr m c) (weightArr m c)) shapeCasts_S16384x4096_S4x4096x4096 := by
  unfold Pipeline.afterTail₀
  show StableHlo.after hostOps1 _ (Proc.devRef .tc main_v12) = _
  after_results
  have e : Pipeline.withArrays (cfgs 0).spec c (V0 m c) (fun w => (dats m 0 c).arrAt w (cfgs 0).N) (Proc.tc.devRef main_v11)
      = whole (rowsArr m c) (tableArr m c) (weightArr m c) :=
    (Pipeline.withArrays_arr spec0 launch0.win.arr_inj c _ _ 3).trans (final m c)
  rw [e]
  rfl

/-- Splitting the row axis `n = 4096 b + s` back into batch × row, read at `(b, s, o)`. -/
theorem split_apply (A : Vec Ideal S16384x4096 .f32) (b : Fin 4) (s o : Fin 4096) :
    shapeCast S4x4096x4096 A shapeCasts_S16384x4096_S4x4096x4096 (ix3 b s o)
      = A (ix2 ⟨b.val * 4096 + s.val, by omega⟩ o) :=
  shapeCast_apply A _ (ix3 b s o) (ix2 ⟨b.val * 4096 + s.val, by omega⟩ o) (by
    rw [Shape.rowMajor_val_two, Shape.rowMajor_val_three]
    show (b.val * 4096 + s.val) * 4096 + o.val = (b.val * 4096 + s.val) * 4096 + o.val
    rfl)

/-- The result the kernel's program ends with, as a function of the arrays its region finds. -/
def result (c : Dev nD) : FVec Ideal S4x4096x4096 .f32 :=
  shapeCast S4x4096x4096 (whole (rowsArr m c) (tableArr m c) (weightArr m c)) shapeCasts_S16384x4096_S4x4096x4096

/-- At `(b, s, o)`: the sum over the 64 picked columns of the picked entry of row `4096 b + s` times the weight. -/
theorem result_apply (c : Dev nD) (b : Fin 4) (s o : Fin 4096) :
    result m c (ix3 b s o)
      = ∑ r : Fin 64, (∑ k : Fin 4096, rowsArr m c (ix2 ⟨b.val * 4096 + s.val, by omega⟩ k) * tableArr m c (ix2 k r))
          * weightArr m c (ix2 r o) := by
  unfold result
  rw [split_apply, whole_apply]

/-- THE KERNEL'S RUN, READ: every weakly fair execution terminates with the result buffer at `result` and the arguments
    unchanged. -/
theorem run : θ_run defs (onTc (τ := τ) (main (F := Ideal))) ⟨m, fun _ => 0, ρ⟩ fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.KernelArrays.lean ====
/-
  The arrays the region finds, read at an index.

  Before its one region the kernel's host program computes three arrays from the inputs `x : [4, 4096, 4096]`,
  `w : [4096, 64]` and `idx : [64]`, and the region reads them as its operands:

  * the rows of `x`: `x` reshaped to `[16384, 4096]`. Row `p` is row `p % 4096` of batch `p / 4096`, because both
    shapes list the entries in row-major order;
  * the one-hot table of shape `[4096, 64]`: the entry at `(k, r)` is 1 when the row number `k`, as a 32-bit word,
    equals `idx r`, and 0 otherwise. It is built as the comparison of a row counter spread along the rows with `idx`
    spread along the columns, the bit then read as an unsigned integer;
  * the transposed weight of shape `[64, 4096]`: the entry at `(r, o)` is `w (o, r) · 1`, which is `w (o, r)`.

  Each is proved in two steps: first the array as the term the host operations build from the inputs (the operations
  write distinct buffers, so each buffer holds its own operation's value), then that term read at one index. Everything
  stays symbolic in the index: no table is ever evaluated.
-/
import proofs.«407512_j6390911336859_3_alg».proof.Proof.Gen.KernelIdeal.Frame
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.Lib.IdealHost

noncomputable section

namespace Cert.KernelIdeal.Arrays

open Cert.KernelIdeal Cert.KernelIdeal.Gen Idealize.ShloMosaic Idealize.ShloMosaic.ValueIdx Idealize.SL.Sem
  Idealize.ShloMosaic.TcCoe

/-! ## Reading lemmas -/

/-- The rank-1 index at coordinate `k`, in either of its two spellings. -/
theorem ofFin_eq_ix1 {n : Nat} (k : Fin n) : Shape.Idx.ofFin k = ix1 k := by
  funext a
  match a with
  | ⟨0, _⟩ => exact Fin.ext rfl

/-- A one-bit word read as an unsigned integer over the extended reals is 1 when the bit is set and 0 when it is
    clear. -/
theorem uitofp_bit (b : BitVec 1) :
    FloatOps.uitofp (F := Ideal) .f32 b = if b = 1#1 then (1 : EReal) else 0 := by
  show (((b.toNat : ℕ) : ℝ) : EReal) = _
  rcases BitVec.eq_zero_or_eq_one b with h | h
  · subst h; simp
  · subst h; simp

/-- A vector of 4096 words spread along the rows of a `[4096, 64]` rectangle reads, at `(k, r)`, the vector at `k`. -/
theorem rowsBcast_apply (v : S4096.Idx → BitVec 32) (k : Fin 4096) (r : Fin 64) :
    broadcastInDim S4096x64 ![0, 1] Facts₀.bcast_S4096x1_S4096x64_0_1
        (broadcastInDim S4096x1 ![0] Facts₀.bcast_S4096_S4096x1_0 v) (ix2 k r) = v (ix1 k) :=
  (StableHlo.Predicate.bcast_rows Facts₀.bcast_S4096_S4096x1_0 Facts₀.bcast_S4096x1_S4096x64_0_1 v k r).trans
    (congrArg v (ofFin_eq_ix1 k))

/-- A vector of 64 words spread along the columns of a `[4096, 64]` rectangle reads, at `(k, r)`, the vector at
    `r`. -/
theorem colsBcast_apply (v : S64.Idx → BitVec 32) (k : Fin 4096) (r : Fin 64) :
    broadcastInDim S4096x64 ![0, 1] Facts₀.bcast_S1x64_S4096x64_0_1
        (broadcastInDim S1x64 ![1] Facts₀.bcast_S64_S1x64_1 v) (ix2 k r) = v (ix1 r) :=
  (StableHlo.Predicate.bcast_cols Facts₀.bcast_S64_S1x64_1 Facts₀.bcast_S1x64_S4096x64_0_1 v k r).trans
    (congrArg v (ofFin_eq_ix1 r))

/-- The array `X : [4, 4096, 4096]` reshaped to `[16384, 4096]` reads, at `(p, k)`, the entry of `X` at batch `p / 4096`, row
    `p % 4096`, column `k`: the two indices have the same row-major position,
    `(p / 4096 · 4096 + p % 4096) · 4096 + k = p · 4096 + k`. -/
theorem rows_read (X : FVec Ideal S4x4096x4096 .f32) (p : Fin 16384) (k : Fin 4096) :
    shapeCast S16384x4096 X Facts₀.shapeCasts_S4x4096x4096_S16384x4096 (ix2 p k)
      = X (ix3 ⟨p.val / 4096, by have := p.isLt; omega⟩ ⟨p.val % 4096, Nat.mod_lt _ (by norm_num)⟩ k) := by
  refine shapeCast_apply X _ _ _ ?_
  rw [Shape.rowMajor_val_two, Shape.rowMajor_val_three]
  show (p.val / 4096 * 4096 + p.val % 4096) * 4096 + k.val = p.val * 4096 + k.val
  have := Nat.div_add_mod p.val 4096
  omega

/-- The comparison of the row counter with the index vector, read as an unsigned integer, is at `(k, r)` the number 1
    when the word `k` is the entry `r` of the vector and 0 otherwise. -/
theorem onehot_read (idx : IVec S64 32) (k : Fin 4096) (r : Fin 64) :
    uitofp (F := Ideal) .f32 (cmpi .eq
        (broadcastInDim S4096x64 ![0, 1] Facts₀.bcast_S4096x1_S4096x64_0_1
          (broadcastInDim S4096x1 ![0] Facts₀.bcast_S4096_S4096x1_0 (iotaInDim S4096 32 0)))
        (broadcastInDim S4096x64 ![0, 1] Facts₀.bcast_S1x64_S4096x64_0_1
          (broadcastInDim S1x64 ![1] Facts₀.bcast_S64_S1x64_1 idx))) (ix2 k r)
      = if BitVec.ofNat 32 k.val = idx (ix1 r) then (1 : EReal) else 0 := by
  show FloatOps.uitofp (F := Ideal) .f32 (IntOp.cmpi .eq
      (broadcastInDim S4096x64 ![0, 1] Facts₀.bcast_S4096x1_S4096x64_0_1
        (broadcastInDim S4096x1 ![0] Facts₀.bcast_S4096_S4096x1_0 (iotaInDim S4096 32 0)) (ix2 k r))
      (broadcastInDim S4096x64 ![0, 1] Facts₀.bcast_S1x64_S4096x64_0_1
        (broadcastInDim S1x64 ![1] Facts₀.bcast_S64_S1x64_1 idx) (ix2 k r))) = _
  rw [rowsBcast_apply, colsBcast_apply, uitofp_bit]
  have hi : iotaInDim S4096 32 0 (ix1 k) = BitVec.ofNat 32 k.val := rfl
  rw [hi]
  by_cases h : BitVec.ofNat 32 k.val = idx (ix1 r)
  · rw [if_pos h, if_pos (StableHlo.Predicate.cmpi_eq_iff.2 h)]
  · rw [if_neg h, if_neg (fun h' => h (StableHlo.Predicate.cmpi_eq_iff.1 h'))]

/-- The weight `W : [4096, 64]` transposed and multiplied by the constant 1.0 reads, at `(r, o)`, the entry `W (o, r)`:
    the transpose swaps the coordinates, the bit pattern of the constant is the number 1, and `a · 1 = a`. -/
theorem weightT_read (W : FVec Ideal S4096x64 .f32) (r : Fin 64) (o : Fin 4096) :
    mulf (F := Ideal) (transpose S64x4096 [1, 0] W Facts₀.transposes_S4096x64_S64x4096_1_0)
        (broadcastInDim S64x4096 ![] Facts₀.bcast_S_S64x4096 (constant (F := Ideal) S_ .f32 0x3F800000#32)) (ix2 r o)
      = W (ix2 o r) := by
  rw [mulf_apply, transpose_ix2_apply, StableHlo.Predicate.bcast_scalar Facts₀.bcast_S_S64x4096 (by decide),
    constant_apply, Ideal.ofBits_one_f32, mul_one]

variable (m : (ℓ : Loc nD τ sig) → Buf (Elt Ideal) ℓ)

/-! ## The three arrays as terms over the inputs -/

/-- The first operand is the input `x` reshaped to `[16384, 4096]`. -/
theorem rows_term (c : Dev nD) :
    (V m c main_v0 : S16384x4096.Idx → EReal)
      = shapeCast S16384x4096 (m ((c : Thread nD τ).loc main_arg0) : S4x4096x4096.Idx → EReal)
          Facts₀.shapeCasts_S4x4096x4096_S16384x4096 := by
  show StableHlo.after hostOps0 (fun b => m (c, b)) (Proc.devRef .tc main_v0) = _
  after_results
  rfl

/-- The second operand is the bit `row counter = idx`, compared on the `[4096, 64]` rectangle and read as an unsigned
    integer. -/
theorem onehot_term (c : Dev nD) :
    (V m c main_v7 : S4096x64.Idx → EReal)
      = uitofp (F := Ideal) .f32 (cmpi .eq
          (broadcastInDim S4096x64 ![0, 1] Facts₀.bcast_S4096x1_S4096x64_0_1
            (broadcastInDim S4096x1 ![0] Facts₀.bcast_S4096_S4096x1_0 (iotaInDim S4096 32 0)))
          (broadcastInDim S4096x64 ![0, 1] Facts₀.bcast_S1x64_S4096x64_0_1
            (broadcastInDim S1x64 ![1] Facts₀.bcast_S64_S1x64_1
              (m ((c : Thread nD τ).loc main_arg2) : S64.Idx → BitVec 32)))) := by
  show StableHlo.after hostOps0 (fun b => m (c, b)) (Proc.devRef .tc main_v7) = _
  after_results

/-- The third operand is the weight transposed, times the constant 1.0 spread over `[64, 4096]`. -/
theorem weightT_term (c : Dev nD) :
    (V m c main_v10 : S64x4096.Idx → EReal)
      = mulf (F := Ideal)
          (transpose S64x4096 [1, 0] (m ((c : Thread nD τ).loc main_arg1) : S4096x64.Idx → EReal)
            Facts₀.transposes_S4096x64_S64x4096_1_0)
          (broadcastInDim S64x4096 ![] Facts₀.bcast_S_S64x4096 (constant (F := Ideal) S_ .f32 0x3F800000#32)) := by
  show StableHlo.after hostOps0 (fun b => m (c, b)) (Proc.devRef .tc main_v10) = _
  after_results

/-! ## The three arrays read at an index -/

/-- Row `p` of the region's first operand is row `p % 4096` of batch `p / 4096` of the input `x`. -/
theorem rows_apply (c : Dev nD) (p : Fin 16384) (k : Fin 4096) :
    (V m c main_v0 : S16384x4096.Idx → EReal) (ix2 p k)
      = (m ((c : Thread nD τ).loc main_arg0) : S4x4096x4096.Idx → EReal)
          (ix3 ⟨p.val / 4096, by have := p.isLt; omega⟩ ⟨p.val % 4096, Nat.mod_lt _ (by norm_num)⟩ k) := by
  rw [rows_term]
  exact rows_read _ p k

/-- The region's second operand, the one-hot table, is at `(k, r)` the number 1 exactly when the row number `k`, as a
    32-bit word, is the entry `idx r` of the input index vector, and 0 otherwise. -/
theorem onehot_apply (c : Dev nD) (k : Fin 4096) (r : Fin 64) :
    (V m c main_v7 : S4096x64.Idx → EReal) (ix2 k r)
      = if BitVec.ofNat 32 k.val = (m ((c : Thread nD τ).loc main_arg2) : S64.Idx → BitVec 32) (ix1 r)
          then (1 : EReal) else 0 := by
  rw [onehot_term]
  exact onehot_read _ k r

/-- The region's third operand, the transposed weight, is at `(r, o)` the entry `w (o, r)` of the input weight. -/
theorem weightT_apply (c : Dev nD) (r : Fin 64) (o : Fin 4096) :
    (V m c main_v10 : S64x4096.Idx → EReal) (ix2 r o)
      = (m ((c : Thread nD τ).loc main_arg1) : S4096x64.Idx → EReal) (ix2 o r) := by
  rw [weightT_term]
  exact weightT_read _ r o

end Cert.KernelIdeal.Arrays

end
-- ==== Proof.Bridge.lean ====
/-
  The kernel's result is the specification on the domain.

  The selection table is the one-hot table of the index vector: `T (k, r) = 1` when row number `k` equals entry `r` of
  `idx` (as 32-bit words) and `0` otherwise. For an entry below 4096 exactly one of the 4096 rows matches, so the
  product with the table picks a column:

      ∑ k < 4096, X (n, k) · T (k, r) = X (n, idx r),

  a sum of zeros and one term, which needs no finiteness (on the extended reals `a · 0 = 0` for every `a`). The rows
  `X (4096 b + s, ·)` are the rows `x (b, s, ·)` of the input and `Wt (r, o) = w (o, r)`, so the kernel's result at
  `(b, s, o)` is `∑ r, x (b, s, idx r) · w (o, r)`.
-/
import proofs.«407512_j6390911336859_3_alg».proof.Proof.KernelWhole
import proofs.«407512_j6390911336859_3_alg».proof.Proof.KernelArrays
import proofs.«407512_j6390911336859_3_alg».proof.Proof.Spec

set_option maxRecDepth 16384

noncomputable section

namespace Cert.KernelIdeal.Bridge

open Cert.KernelIdeal Cert.KernelIdeal.Gen Idealize.ShloMosaic Idealize.ShloMosaic.ValueIdx Idealize.ShloMosaic.TcCoe
open Idealize.SL.Sem

/-- A sum against the indicator of "row number `k` is the word `a`", for a word below 4096, is the term at `a`. -/
theorem sum_onehot (f : Fin 4096 → EReal) (a : BitVec 32) (h : a.toNat < 4096) :
    ∑ k : Fin 4096, f k * (if BitVec.ofNat 32 k.val = a then (1 : EReal) else 0) = f ⟨a.toNat, h⟩ := by
  rw [Finset.sum_eq_single (⟨a.toNat, h⟩ : Fin 4096)]
  · rw [if_pos (by show BitVec.ofNat 32 a.toNat = a; simp), mul_one]
  · intro k _ hk
    rw [if_neg, mul_zero]
    intro e
    apply hk
    apply Fin.ext
    show k.val = a.toNat
    rw [← e, BitVec.toNat_ofNat]
    have := k.isLt
    omega
  · intro h'
    exact absurd (Finset.mem_univ _) h'

variable (m : (ℓ : Loc nD τ sig) → Buf (Elt Ideal) ℓ)

/-- The three arguments as launched, at their literal types. -/
abbrev xArg (c : Dev nD) : FVec Ideal S4x4096x4096 .f32 := m ((c : Thread nD τ).loc main_arg0)
abbrev wArg (c : Dev nD) : FVec Ideal S4096x64 .f32 := m ((c : Thread nD τ).loc main_arg1)
abbrev idxArg (c : Dev nD) : IVec S64 32 := m ((c : Thread nD τ).loc main_arg2)

/-- Row `4096 b + s` of the merged rows is row `(b, s)` of the input. -/
theorem rows_at (c : Dev nD) (b : Fin 4) (s k : Fin 4096) :
    Whole.rowsArr m c (ix2 ⟨b.val * 4096 + s.val, by omega⟩ k) = xArg m c (ix3 b s k) := by
  have e1 : Whole.rowsArr m c (ix2 ⟨b.val * 4096 + s.val, by omega⟩ k)
      = xArg m c (ix3 ⟨(b.val * 4096 + s.val) / 4096, by omega⟩ ⟨(b.val * 4096 + s.val) % 4096, Nat.mod_lt _ (by norm_num)⟩ k) :=
    Arrays.rows_apply m c ⟨b.val * 4096 + s.val, by omega⟩ k
  have eb : (⟨(b.val * 4096 + s.val) / 4096, by omega⟩ : Fin 4) = b := Fin.ext (by show (b.val * 4096 + s.val) / 4096 = b.val; omega)
  have es : (⟨(b.val * 4096 + s.val) % 4096, Nat.mod_lt _ (by norm_num)⟩ : Fin 4096) = s :=
    Fin.ext (by show (b.val * 4096 + s.val) % 4096 = s.val; omega)
  rw [e1, eb, es]

/-- The selection table is the indicator of "row number `k` is entry `r` of the index vector". -/
theorem table_at (c : Dev nD) (k : Fin 4096) (r : Fin 64) :
    Whole.tableArr m c (ix2 k r) = if BitVec.ofNat 32 k.val = idxArg m c (ix1 r) then (1 : EReal) else 0 :=
  Arrays.onehot_apply m c k r

/-- The transposed weight at `(r, o)` is the weight at `(o, r)`. -/
theorem weight_at (c : Dev nD) (r : Fin 64) (o : Fin 4096) : Whole.weightArr m c (ix2 r o) = wArg m c (ix2 o r) :=
  Arrays.weightT_apply m c r o

/-- THE KERNEL'S RESULT IS `G` of its three arguments when the index vector is in range. -/
theorem result_eq (c : Dev nD) (h : Cert.Spec.InRange (idxArg m c)) :
    Whole.result m c = Cert.Spec.G (xArg m c) (wArg m c) (idxArg m c) := by
  funext i
  obtain ⟨b, s, o, rfl⟩ : ∃ (b : Fin 4) (s o : Fin 4096), i = ix3 b s o := ⟨i 0, i 1, i 2, eq_ix3 i⟩
  rw [Whole.result_apply, Cert.Spec.G_apply]
  refine Finset.sum_congr rfl fun r _ => ?_
  rw [weight_at]
  congr 1
  rw [Finset.sum_congr rfl (fun k _ => by rw [rows_at m c b s k, table_at m c k r] :
      ∀ k ∈ (Finset.univ : Finset (Fin 4096)), Whole.rowsArr m c (ix2 ⟨b.val * 4096 + s.val, by omega⟩ k) * Whole.tableArr m c (ix2 k r)
        = xArg m c (ix3 b s k) * (if BitVec.ofNat 32 k.val = idxArg m c (ix1 r) then (1 : EReal) else 0))]
  rw [sum_onehot (fun k => xArg m c (ix3 b s k)) (idxArg m c (ix1 r)) (h r)]
  have ec : (⟨(idxArg m c (ix1 r)).toNat, h r⟩ : Fin 4096) = Cert.Spec.col (idxArg m c) r :=
    Fin.ext (Cert.Spec.col_val h r).symm
  rw [ec]

end Cert.KernelIdeal.Bridge

end
-- ==== Proof.RefRun.lean ====
/-
  The reference program's run, read back as a pure term of its three arguments.

  The reference is a straight line of 27 host operations: the 23 of the column pick `take x idx` along the last
  axis (a negative column number is wrapped once by the axis' extent 4096; the wrapped numbers are the start
  indices of a gather of one column each; a column number outside `[0, 4095]` after the wrap selects the fill value,
  a NaN pattern, in place of the gathered entry), then the contraction of the picked columns with the weight's
  second axis, and the product with the broadcast constant `1.0`.

  `out x w idx` is that line's composed value, in named stages (`wrapped`, `starts`, `inRangeMask`, `gathered`,
  `taken`, `projected`); `run` states that every weakly fair execution of the program ends with the result buffer
  at `out` of the arguments' launch contents and the arguments unchanged. Generic in the float instance.
-/
import proofs.«407512_j6390911336859_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The value, stage by stage -/

/-- The column numbers with the negative ones (as signed words) wrapped once by the axis' extent:
    `idx r + 4096` where `idx r < 0`, else `idx r`. -/
def wrapped (idx : IVec S64 32) : IVec S64 32 :=
  select (cmpi .slt idx (broadcastInDim S64 ![] bcast_S_S64 (constantI S_ 32 0#32)))
    (addi idx (broadcastInDim S64 ![] bcast_S_S64 (constantI S_ 32 4096#32))) idx

/-- The wrapped column numbers as the gather's table of start indices: one row of one coordinate per picked column. -/
def starts (idx : IVec S64 32) : IVec S64x1 32 :=
  broadcastInDim S64x1 ![0] bcast_S64_S64x1_0 (wrapped idx)

/-- Per picked column, whether its wrapped number lies in `[0, 4095]` as a signed word: the conjunction, over the
    one coordinate of its row of `starts`, of `0 ≤ ·` and `· ≤ 4095`. -/
def inRangeMask (idx : IVec S64 32) : IVec S64 1 :=
  Host.reduce IntOp.andi
    (andi (cmpi .sge (starts idx) (broadcastInDim S64x1 ![] bcast_S_S64x1 (constantI S_ 32 0#32)))
      (cmpi .sle (starts idx)
        (broadcastInDim S64x1 ![0, 1] bcast_S1x1_S64x1_0_1
          (broadcastInDim S1x1 ![1] bcast_S1_S1x1_1 (constantI S1 32 4095#32)))))
    (constantI S_ 1 1#1) reducesTo_S64x1_S64_d1 h_S_

/-- The gather: for every batch and row, the 64 entries of `x` at the (clamped) start columns. -/
def gathered (x : FVec F S4x4096x4096 .f32) (idx : IVec S64 32) : FVec F S4x4096x64 .f32 :=
  Host.gather gather_S4x4096x4096_S64x1_S4x4096x64_01_2_n_n_2_1_440961 x (starts idx)

/-- The picked columns: the gathered entry where the column number is in range, the fill pattern elsewhere. -/
def taken (x : FVec F S4x4096x4096 .f32) (idx : IVec S64 32) : FVec F S4x4096x64 .f32 :=
  select (broadcastInDim S4x4096x64 ![2] bcast_S64_S4x4096x64_2 (inRangeMask idx)) (gathered x idx)
    (broadcastInDim S4x4096x64 ![] bcast_S_S4x4096x64 (constant S_ .f32 0x7FC00000#32))

/-- The picked columns contracted with the weight's second axis. -/
def projected (x : FVec F S4x4096x4096 .f32) (w : FVec F S4096x64 .f32) (idx : IVec S64 32) : FVec F S4x4096x4096 .f32 :=
  Host.dotGeneral dot_S4x4096x64_S4096x64_S4x4096x4096_2_1_01_0_n_n none (taken x idx) w

/-- The reference's value: the projection times the broadcast constant `1.0`. -/
def out (x : FVec F S4x4096x4096 .f32) (w : FVec F S4096x64 .f32) (idx : IVec S64 32) : FVec F S4x4096x4096 .f32 :=
  mulf (projected x w idx) (broadcastInDim S4x4096x4096 ![] bcast_S_S4x4096x4096 (constant S_ .f32 0x3F800000#32))

/-! ## The program as a list of operations -/

/-- The program's 27 operations in order, the two calls unfolded: the column pick's 23 over its call record's
    buffers (the inner select of the wrap written into the nested record's buffer), then the contraction, the
    constant, its broadcast and the product. -/
abbrev ops : List (HloOp τ sig (Elt F)) :=
  [ TRef.nullary main_call0.c (constantI S_ 32 0#32),
    TRef.unary main_call0.c main_call0.v0 (broadcastInDim S64 ![] bcast_S_S64),
    TRef.binary (.of main_arg2) main_call0.v0 main_call0.v1 (cmpi .slt),
    TRef.nullary main_call0.c_0 (constantI S_ 32 4096#32),
    TRef.unary main_call0.c_0 main_call0.v2 (broadcastInDim S64 ![] bcast_S_S64),
    TRef.binary (.of main_arg2) main_call0.v2 main_call0.v3 addi,
    TRef.ternary main_call0.v1 main_call0.v3 (.of main_arg2) main_call0.call0.v0 select,
    TRef.unary main_call0.call0.v0 main_call0.v5 (broadcastInDim S64x1 ![0] bcast_S64_S64x1_0),
    TRef.nullary main_call0.c_1 (constantI S1 32 4095#32),
    TRef.nullary main_call0.c_2 (constantI S_ 32 0#32),
    TRef.unary main_call0.c_2 main_call0.v6 (broadcastInDim S64x1 ![] bcast_S_S64x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S64x1 ![0, 1] bcast_S1x1_S64x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S64x1_S64_d1 h_S_),
    TRef.binary (.of main_arg0) main_call0.v5 main_call0.v13 (fun x i => Host.gather gather_S4x4096x4096_S64x1_S4x4096x64_01_2_n_n_2_1_440961 x i),
    TRef.unary main_call0.v12 main_call0.v14 (broadcastInDim S4x4096x64 ![2] bcast_S64_S4x4096x64_2),
    TRef.nullary main_call0.cst (constant S_ .f32 0x7FC00000#32),
    TRef.unary main_call0.cst main_call0.v15 (broadcastInDim S4x4096x64 ![] bcast_S_S4x4096x64),
    TRef.ternary main_call0.v14 main_call0.v13 main_call0.v15 main_call0.v16 select,
    binary main_v0 main_arg1 main_v1 ((fun l r => Host.dotGeneral dot_S4x4096x64_S4096x64_S4x4096x4096_2_1_01_0_n_n none l r) : (⟨S4x4096x64, .f32⟩ : BufTy).Contents (Elt F) → (⟨S4096x64, .f32⟩ : BufTy).Contents (Elt F) → (⟨S4x4096x4096, .f32⟩ : BufTy).Contents (Elt F)),
    nullary main_cst (constant S_ .f32 0x3F800000#32),
    unary main_cst main_v2 (broadcastInDim S4x4096x4096 ![] bcast_S_S4x4096x4096 : (⟨S_, .f32⟩ : BufTy).Contents (Elt F) → (⟨S4x4096x4096, .f32⟩ : BufTy).Contents (Elt F)),
    binary main_v1 main_v2 main_v3 (mulf : (⟨S4x4096x4096, .f32⟩ : BufTy).Contents (Elt F) → (⟨S4x4096x4096, .f32⟩ : BufTy).Contents (Elt F) → (⟨S4x4096x4096, .f32⟩ : BufTy).Contents (Elt F)) ]

set_option maxRecDepth 1024 in
/-- The program is that straight line: the two functions' bodies unfolded at their calls and the sequencing
    re-associated, both sides are one chain of steps. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., nullary_bufs_sub .., unary_bufs_sub .., binary_bufs_sub ..⟩

attribute [local irreducible] Host.reduce Host.gather in
set_option maxRecDepth 8192 in
/-- The fold of the line at the result buffer is `out` of the arguments: each operation's result is read at its own
    buffer and passed through at every other; the typed references' transports, there and back along one equation of
    types, cancel; what is left is `out` unfolded. The reduction and the gather stay folded meanwhile: the equation
    never looks inside them. -/
theorem out_after (V : Valuation τ sig (Elt F)) :
    after ops V (main_v3 : DevRef τ sig)
      = out (V (main_arg0 : DevRef τ sig)) (V (main_arg1 : DevRef τ sig)) (V (main_arg2 : DevRef τ sig)) := by
  after_results
  simp only [TRef.toBuf, TRef.ofBuf, cast_cast, cast_eq]
  rfl

theorem arg0_after (V : Valuation τ sig (Elt F)) :
    after ops V (main_arg0 : DevRef τ sig) = V (main_arg0 : DevRef τ sig) := by
  simp only [after_cons, after_nil]
  rfl

theorem arg1_after (V : Valuation τ sig (Elt F)) :
    after ops V (main_arg1 : DevRef τ sig) = V (main_arg1 : DevRef τ sig) := by
  simp only [after_cons, after_nil]
  rfl

theorem arg2_after (V : Valuation τ sig (Elt F)) :
    after ops V (main_arg2 : DevRef τ sig) = V (main_arg2 : DevRef τ sig) := by
  simp only [after_cons, after_nil]
  rfl

/-- On every device, for any float values, from any memory with zero counters: every weakly fair execution of the
    program terminates with the result buffer at `out` of the three arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v3).trans (out_after _),
      (h c main_arg0).trans (arg0_after _),
      (h c main_arg1).trans (arg1_after _),
      (h c main_arg2).trans (arg2_after _)⟩)
    (run_seq scopedRefs_eq scopedSems_eq defs main (fun _ => ops) main_eq (fun _ => ops_sub) m ρ)

end Cert.ReferenceIdeal.RefRun

end
-- ==== Proof.LibTakeLastAxis.lean ====
/-
  Picking entries along the last axis of a rank-3 array, and a conjunction that is all ones.

  jnp's `take(x, idx, axis = -1)` of an array `x : [B, S, N]` at a vector `idx : [R]` of positions prints as a
  `stablehlo.gather` whose start indices are the `[R, 1]` column of positions, whose last operand axis is collapsed
  and start-indexed, whose two leading axes are offset axes read whole, with the index vector on axis 1
  (`takeLastDims`). Result element `(b, s, r)` is `x` at `(b, s, p)` where `p` is position `r`'s start index read as
  a signed integer and clamped into `[0, N − 1]`, as StableHLO's gather clamps every start index
  (`gather_takeLast_apply`).

  A `stablehlo.reduce` by `and` from the initial value 1 over an array of one-bit words that are all 1 is 1 at
  every result index (`reduce_andi_of_all_one`): the converse of reading a conjunction back.
-/
import Idealize.ShloMosaic.PureOps.Ideal
import Idealize.ShloMosaic.PureOps.Reduce
import Idealize.ShloMosaic.Lib.ValueIdx

noncomputable section

namespace Cert.LibTakeLastAxis

open Idealize.ShloMosaic Idealize.ShloMosaic.ValueIdx

/-! ## A conjunction of ones -/

/-- A left fold by `and` from 1 over one-bit words that are all 1 is 1. -/
theorem foldl_andi_of_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_of_all_one f l fun n hn => h n (List.mem_cons_of_mem _ hn)

/-- A `stablehlo.reduce` by `and`, from an initial value that is 1, of an operand whose every element is 1, is 1 at
    every result index. -/
theorem reduce_andi_of_all_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_of_all_one x _ fun i _ => hx i

/-! ## The gather of `take` along the last axis of a rank-3 array -/

section Take
variable {α : Type}

/-- The dimension numbers of `take` along the last axis: operand `[B, S, N]`, start indices `[R, 1]`, result
    `[B, S, R]`; the two leading result axes are the offset axes, the operand's last axis is collapsed and is the one the
    start index names, the index vector lies on axis 1, and a slice is `[B, S, 1]`. Their conditions `wf` are decided on a
    program's literal shapes. -/
abbrev takeLastDims (B S N R : Nat)
    (wf : GatherDims.WF ⟨3, ![B, S, N]⟩ ⟨2, ![R, 1]⟩ ⟨3, ![B, S, R]⟩ [0, 1] [2] [] [2] [] 1 ![B, S, 1]) :
    GatherDims ⟨3, ![B, S, N]⟩ ⟨2, ![R, 1]⟩ ⟨3, ![B, S, R]⟩ where
  offsetDims := [0, 1]
  collapsedSliceDims := [2]
  operandBatchingDims := []
  startIndicesBatchingDims := []
  startIndexMap := [2]
  indexVectorDim := 1
  sliceSizes := ![B, S, 1]
  wf := wf

/-- THE GATHER READ AT `(b, s, r)`: the operand at `(b, s, p)`, `p` the start index `idx[r, 0]` read signed and clamped
    into `[0, N − 1]`. -/
theorem gather_takeLast_apply {B S N R w : Nat} (hN : 0 < N)
    (wf : GatherDims.WF ⟨3, ![B, S, N]⟩ ⟨2, ![R, 1]⟩ ⟨3, ![B, S, R]⟩ [0, 1] [2] [] [2] [] 1 ![B, S, 1])
    (x : (⟨3, ![B, S, N]⟩ : Shape).Idx → α) (idx : IVec ⟨2, ![R, 1]⟩ w) (b : Fin B) (s : Fin S) (r : Fin R) :
    Host.gather (takeLastDims B S N R wf) x idx (ix3 b s r)
      = x (ix3 b s ⟨min (idx (ix2 r (0 : Fin 1))).toInt.toNat (N - 1), by omega⟩) := by
  unfold Host.gather
  congr 1
  funext a
  refine Fin.ext ?_
  show (takeLastDims B S N R wf).start (ix3 b s r) idx a + (takeLastDims B S N R wf).batchCoord (ix3 b s r) a
    + (takeLastDims B S N R wf).offCoord (ix3 b s r) a = _
  rw [GatherDims.batchCoord_eq_zero _ _ _ List.not_mem_nil, Nat.add_zero]
  match a with
  | ⟨0, h0⟩ =>
    -- a leading axis: no start index names it, and it is the first offset axis
    have h1 : (takeLastDims B S N R wf).start (ix3 b s r) idx ⟨0, h0⟩ = 0 := by
      unfold GatherDims.start
      exact dif_neg (show (0 : Fin 3) ∉ ([2] : List (Fin 3)) by decide)
    have h2 : (takeLastDims B S N R wf).offCoord (ix3 b s r) ⟨0, h0⟩ = b.val := by
      unfold GatherDims.offCoord
      exact (dif_pos (show (0 : Fin 3) ∈ ([0, 1] : List (Fin 3)) by decide)).trans rfl
    rw [h1, h2, Nat.zero_add]
  | ⟨1, h0⟩ =>
    have h1 : (takeLastDims B S N R wf).start (ix3 b s r) idx ⟨1, h0⟩ = 0 := by
      unfold GatherDims.start
      exact dif_neg (show (1 : Fin 3) ∉ ([2] : List (Fin 3)) by decide)
    have h2 : (takeLastDims B S N R wf).offCoord (ix3 b s r) ⟨1, h0⟩ = s.val := by
      unfold GatherDims.offCoord
      exact (dif_pos (show (1 : Fin 3) ∈ ([0, 1] : List (Fin 3)) by decide)).trans rfl
    rw [h1, h2, Nat.zero_add]
  | ⟨2, h0⟩ =>
    -- the collapsed axis: the clamped start index, no offset
    have h2 : (takeLastDims B S N R wf).offCoord (ix3 b s r) ⟨2, h0⟩ = 0 :=
      GatherDims.offCoord_eq_zero _ _ _ (show (2 : Fin 3) ∉ ([0, 1] : List (Fin 3)) by decide)
    have hm : (⟨2, h0⟩ : Fin 3) ∈ (takeLastDims B S N R wf).startIndexMap := List.mem_singleton.mpr rfl
    have hsi : (takeLastDims B S N R wf).siIdx (ix3 b s r) ⟨List.idxOf (⟨2, h0⟩ : Fin 3) (takeLastDims B S N R wf).startIndexMap,
        List.idxOf_lt_length_iff.2 hm⟩ = ix2 r (0 : Fin 1) := by
      funext c; refine Fin.ext ?_
      match c with
      | ⟨0, _⟩ => rfl
      | ⟨1, _⟩ => rfl
    rw [h2, Nat.add_zero]
    unfold GatherDims.start
    rw [dif_pos hm, hsi]
    rfl

end Take

end Cert.LibTakeLastAxis

end
-- ==== Proof.RefValue.lean ====
/-
  The reference's value is the specification on the domain.

  At the ideal values, for an index vector whose every entry is a column of the 4096-wide axis, the reference's composed
  term `RefRun.out x w idx` is `Spec.G x w idx`: at `(b, s, o)` the sum over the 64 picked columns of
  `x (b, s, idx r) · w (o, r)`. Stage by stage: an entry below 4096 is not negative as a signed word, so the wrap by the
  axis' extent is not taken (`wrapped_apply`); the start-index column holds the entries (`starts_apply`); every entry
  passes `0 ≤ · ≤ 4095`, so the in-range mask is all ones (`mask_apply`); the gather reads `x` at the entry itself, the
  clamp into `[0, 4095]` being the identity there, and the select keeps it (`taken_apply`); the contraction over the
  gathered axis is the sum over the picked columns (`projected_apply`); and the product with the constant `1.0` changes
  nothing (`ofBits_one_f32`, `out_eq`).
-/
import proofs.«407512_j6390911336859_3_alg».proof.Proof.Spec
import proofs.«407512_j6390911336859_3_alg».proof.Proof.RefRun
import proofs.«407512_j6390911336859_3_alg».proof.Proof.LibTakeLastAxis
import Idealize.ShloMosaic.Lib.ValueIdx
import Idealize.ShloMosaic.Lib.Pipeline.Value
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.RefRun Cert.LibTakeLastAxis
open Idealize.ShloMosaic Idealize.ShloMosaic.ValueIdx Idealize.ShloMosaic.StableHlo.Predicate

/-! ## The constant -/

/-- The pattern `0x3F800000` is the number one: sign 0, exponent 127 (the bias), fraction 0. -/
theorem ofBits_one_f32 : Ideal.ofBits .f32 0x3F800000#32 = 1 := by
  simp [Ideal.ofBits, Ideal.ieee]
  rw [← EReal.coe_mul]
  norm_num

/-! ## The index side, for any float instance -/

/-- On the domain no entry is negative as a signed word, so none is wrapped. -/
theorem wrapped_apply (idx : IVec S64 32) (h : Cert.Spec.InRange idx) (r : Fin 64) :
    wrapped idx (ix1 r) = idx (ix1 r) := by
  have hlt := h r
  have hc : IntOp.cmpi .slt (idx (ix1 r)) 0#32 = 0#1 := by
    apply eq_zero_of_ne_one
    rw [slt_iff_toNat (by omega) (by decide)]
    simp
  show Scalar.select (IntOp.cmpi .slt (idx (ix1 r)) 0#32) _ _ = _
  rw [hc, select_zero]

/-- The start-index column holds the wrapped entries, one per row. -/
theorem starts_apply (idx : IVec S64 32) (p : Fin 64) (q : Fin 1) : starts idx (ix2 p q) = wrapped idx (ix1 p) := by
  unfold starts
  exact broadcastInDim_apply _ _ _ _ (ix1 p) fun a => by
    match a with
    | ⟨0, _⟩ => rfl

/-- On the domain every entry lies in `[0, 4095]`: the in-range mask is all ones. -/
theorem mask_apply (idx : IVec S64 32) (h : Cert.Spec.InRange idx) (r : Fin 64) : inRangeMask idx (ix1 r) = 1#1 := by
  unfold inRangeMask
  refine reduce_andi_of_all_one _ _ _ _ rfl (fun i => ?_) _
  obtain ⟨p, q, rfl⟩ : ∃ (p : Fin 64) (q : Fin 1), i = ix2 p q := ⟨i 0, i 1, eq_ix2 i⟩
  have hs : starts idx (ix2 p q) = idx (ix1 p) := (starts_apply idx p q).trans (wrapped_apply idx h p)
  have hlt := h p
  show IntOp.andi (IntOp.cmpi .sge (starts idx (ix2 p q)) 0#32) (IntOp.cmpi .sle (starts idx (ix2 p q)) 4095#32) = 1#1
  rw [hs, (sge_iff_toNat (by omega) (by decide)).2 (Nat.zero_le _),
    (sle_iff_toNat (by omega) (by decide)).2 (show _ ≤ 4095 by omega)]
  rfl

/-! ## The float side, at the ideal values -/

/-- On the domain the picked column `r` of row `(b, s)` is `x` at the entry itself: the mask keeps the gathered element,
    and the gather's clamp of a start index already in `[0, 4095]` is the identity. -/
theorem taken_apply (x : FVec Ideal S4x4096x4096 .f32) (idx : IVec S64 32) (h : Cert.Spec.InRange idx)
    (b : Fin 4) (s : Fin 4096) (r : Fin 64) :
    taken x idx (ix3 b s r) = x (ix3 b s (Cert.Spec.col idx r)) := by
  have hm : broadcastInDim S4x4096x64 ![2] bcast_S64_S4x4096x64_2 (inRangeMask idx) (ix3 b s r) = 1#1 := by
    rw [broadcastInDim_apply _ _ _ (ix3 b s r) (ix1 r) fun a => by
      match a with
      | ⟨0, _⟩ => rfl]
    exact mask_apply idx h r
  show Scalar.select (broadcastInDim S4x4096x64 ![2] bcast_S64_S4x4096x64_2 (inRangeMask idx) (ix3 b s r))
    (gathered x idx (ix3 b s r)) _ = _
  rw [hm, select_one]
  have hg : gathered x idx (ix3 b s r)
      = Host.gather (takeLastDims 4 4096 4096 64 gather_S4x4096x4096_S64x1_S4x4096x64_01_2_n_n_2_1_440961_wf) x (starts idx) (ix3 b s r) := rfl
  rw [hg, gather_takeLast_apply (by norm_num)]
  have hlt := h r
  have hs : starts idx (ix2 r (0 : Fin 1)) = idx (ix1 r) := (starts_apply idx r 0).trans (wrapped_apply idx h r)
  have hc : (⟨min (starts idx (ix2 r (0 : Fin 1))).toInt.toNat (4096 - 1), by omega⟩ : Fin 4096) = Cert.Spec.col idx r := by
    refine Fin.ext ?_
    show min (starts idx (ix2 r (0 : Fin 1))).toInt.toNat (4096 - 1) = (Cert.Spec.col idx r).val
    rw [hs, Cert.Spec.col_val h, toInt_eq_toNat_of_lt (by omega), Int.toNat_natCast]
    omega
  rw [hc]

/-- The contraction of the picked columns with the weight's second axis is the sum over the 64 picked columns: the
    contraction index is its one coordinate, the left operand is read at `(b, s, r)` and the right at `(o, r)`. -/
theorem projected_apply (x : FVec Ideal S4x4096x4096 .f32) (w : FVec Ideal S4096x64 .f32) (idx : IVec S64 32)
    (h : Cert.Spec.InRange idx) (b : Fin 4) (s o : Fin 4096) :
    projected x w idx (ix3 b s o) = ∑ r : Fin 64, x (ix3 b s (Cert.Spec.col idx r)) * w (ix2 o r) := by
  show FloatOps.dotGeneral dot_S4x4096x64_S4096x64_S4x4096x4096_2_1_01_0_n_n none .single (taken x idx) w (ix3 b s o) = _
  rw [Ideal.dotGeneral_apply]
  have hr : (dot_S4x4096x64_S4096x64_S4x4096x4096_2_1_01_0_n_n).contr.rank = 1 := rfl
  have hs : (dot_S4x4096x64_S4096x64_S4x4096x4096_2_1_01_0_n_n).contr.size ⟨0, by omega⟩ = 64 := rfl
  refine ((Equiv.sum_comp (contrEquiv1 dot_S4x4096x64_S4096x64_S4x4096x4096_2_1_01_0_n_n 64 hr hs).symm _).symm.trans ?_)
  refine Finset.sum_congr rfl fun r _ => ?_
  have hk : ((contrEquiv1 dot_S4x4096x64_S4096x64_S4x4096x4096_2_1_01_0_n_n 64 hr hs).symm r ⟨0, by omega⟩ : ℕ) = r.val :=
    contrEquiv1_symm_val dot_S4x4096x64_S4096x64_S4x4096x4096_2_1_01_0_n_n 64 hr hs r
  have hl : (dot_S4x4096x64_S4096x64_S4x4096x4096_2_1_01_0_n_n).lhsIdx (ix3 b s o) ((contrEquiv1 dot_S4x4096x64_S4096x64_S4x4096x4096_2_1_01_0_n_n 64 hr hs).symm r) = ix3 b s r := by
    funext a; refine Fin.ext ?_
    match a with
    | ⟨0, _⟩ => rfl
    | ⟨1, _⟩ => rfl
    | ⟨2, _⟩ => exact ((dot_S4x4096x64_S4096x64_S4x4096x4096_2_1_01_0_n_n).lhsIdx_val_of_single rfl _ _).trans hk
  have hrr : (dot_S4x4096x64_S4096x64_S4x4096x4096_2_1_01_0_n_n).rhsIdx (ix3 b s o) ((contrEquiv1 dot_S4x4096x64_S4096x64_S4x4096x4096_2_1_01_0_n_n 64 hr hs).symm r) = ix2 o r := by
    funext a; refine Fin.ext ?_
    match a with
    | ⟨0, _⟩ => rfl
    | ⟨1, _⟩ => exact ((dot_S4x4096x64_S4096x64_S4x4096x4096_2_1_01_0_n_n).rhsIdx_val_of_single rfl _ _).trans hk
  rw [hl, hrr, taken_apply x idx h]

/-! ## The result -/

/-- On the domain the reference's term is the specification: the product with the constant one is the identity, and the
    contraction is the sum over the picked columns. -/
theorem out_eq (x : FVec Ideal S4x4096x4096 .f32) (w : FVec Ideal S4096x64 .f32) (idx : IVec S64 32)
    (h : Cert.Spec.InRange idx) :
    Cert.ReferenceIdeal.RefRun.out (F := Ideal) x w idx = Cert.Spec.G x w idx := by
  funext j
  obtain ⟨b, s, o, rfl⟩ : ∃ (b : Fin 4) (s o : Fin 4096), j = ix3 b s o := ⟨j 0, j 1, j 2, eq_ix3 j⟩
  rw [Cert.Spec.G_apply]
  show projected x w idx (ix3 b s o) * Ideal.ofBits .f32 0x3F800000#32 = _
  rw [ofBits_one_f32, mul_one, projected_apply x w idx h]

end Cert.ReferenceIdeal.RefValue

end
-- ==== Proof.lean ====
/-
  Equivalence of a column-gather-and-project kernel with its reference, over the extended reals.

  Inputs: `x : [4, 4096, 4096]`, a weight `w : [4096, 64]` and 64 column numbers `idx`. Both programs compute

      G x w idx (b, s, o) = ∑ r < 64, x (b, s, idx r) · w (o, r).

  The kernel merges the two leading axes of `x`, builds the one-hot table of `idx` (4096 × 64) and the transposed
  weight times the constant 1, and on each of 32 blocks of 512 rows multiplies the rows by the table (which picks the 64
  columns) and the picked columns by the transposed weight, written in four bands of output columns. The reference
  takes the columns with a gather (negative entries wrapped by the axis' extent, an out-of-range entry answered by a
  not-a-number fill), contracts with the weight and multiplies by the constant 1.

  They agree where every entry of `idx` is a column, `0 ≤ idx r < 4096`, which is what the precondition states beside
  the finiteness of the float inputs: outside that range the reference wraps or fills where the one-hot table has an
  all-zero column. On the range a one-hot column has exactly one `1`, so the product with it is a sum of zeros and one
  term; no finiteness is used (`a · 0 = 0` on the extended reals), and multiplying by the constant `1` changes nothing
  on either side.

  The modules: `Spec` (the function `G` and the domain), `PreRange` (the precondition gives the domain),
  `LibMatmulPlain` (a plain matrix product at an index), `KernelBlock` (the kernel body's output block as a function of
  its input blocks), `KernelWhole` (the kernel's result array and its run), `KernelArrays` (the arrays the kernel's
  region finds, at an index), `Bridge` (the kernel's result is `G`), `RefRun` (the reference's run) and `RefValue` (its
  result is `G`). The ideal pass rewrote nothing, so the idealized kernel is the kernel's own text.
-/
import proofs.«407512_j6390911336859_3_alg».proof.Defs
import proofs.«407512_j6390911336859_3_alg».proof.Proof.Gen.Kernel
import proofs.«407512_j6390911336859_3_alg».proof.Proof.Gen.Kernel.Frame
import proofs.«407512_j6390911336859_3_alg».proof.Proof.Gen.KernelIdeal
import proofs.«407512_j6390911336859_3_alg».proof.Proof.Gen.KernelIdeal.Frame
import proofs.«407512_j6390911336859_3_alg».proof.Proof.Gen.ReferenceIdeal
import proofs.«407512_j6390911336859_3_alg».proof.Proof.Gen.Pre_finite_inputs
import proofs.«407512_j6390911336859_3_alg».proof.Proof.Spec
import proofs.«407512_j6390911336859_3_alg».proof.Proof.PreRange
import proofs.«407512_j6390911336859_3_alg».proof.Proof.KernelWhole
import proofs.«407512_j6390911336859_3_alg».proof.Proof.Bridge
import proofs.«407512_j6390911336859_3_alg».proof.Proof.RefRun
import proofs.«407512_j6390911336859_3_alg».proof.Proof.RefValue

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both programs end with `G` of the arguments: the kernel by its run and the bridge, the reference by its run and its
    value, the index vector in range by the precondition, the two memories agreeing on the arguments. -/
theorem algebraic : Cert.algebraic_KernelIdeal_ReferenceIdeal := by
  intro m ρ m' ρ' hpre hagree
  have hr : ∀ c : Dev Cert.KernelIdeal.nD, Cert.Spec.InRange (Cert.KernelIdeal.Bridge.idxArg m c) :=
    fun c => Cert.PreRange.inRange_of_pre _ _ _ (hpre c)
  refine ⟨fun c => Cert.Spec.G (Cert.KernelIdeal.Bridge.xArg m c) (Cert.KernelIdeal.Bridge.wArg m c) (Cert.KernelIdeal.Bridge.idxArg m c), ?_, ?_⟩
  · exact (θ_run Cert.KernelIdeal.defs _ _).mono
      (fun _ h c => ⟨(h c).1.trans (Cert.KernelIdeal.Bridge.result_eq m c (hr c)), (h c).2⟩)
      (Cert.KernelIdeal.Whole.run m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2]
    exact Cert.ReferenceIdeal.RefValue.out_eq _ _ _ (hr c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
